-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x1024 : Shape := ⟨3, ![32, 16, 1024]⟩
abbrev S32x1024x512 : Shape := ⟨3, ![32, 1024, 512]⟩
abbrev S_ : Shape := ⟨0, ![]⟩

class Facts : Prop where
  bcast_S_S32x16x1024 : S_.BroadcastsInDim S32x16x1024 (![] : Fin 0 → Fin S32x16x1024.rank)
  reducesTo_S32x16x1024_S_d0_1_2 : S32x16x1024.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_

variable [Facts]

def fn {F : FTy → Type} [FloatOps F] (main_arg0 : FVec F S32x16x1024 .f32) (main_arg1 : FVec F S32x1024x512 .f32) : IVec S_ 1 :=
  let main_v0 : FVec F S32x16x1024 .f32 := Host.absf main_arg0
  let main_cst : FVec F S_ .f32 := constant S_ .f32 0x7F800000#32
  let main_v1 : FVec F S32x16x1024 .f32 := broadcastInDim S32x16x1024 ![] bcast_S_S32x16x1024 main_cst
  let main_v2 : IVec S32x16x1024 1 := cmpf .olt main_v0 main_v1
  let main_c : IVec S_ 1 := constantI S_ 1 1#1
  let main_v3 : IVec S_ 1 := (fun x v => Host.reduce IntOp.andi x v reducesTo_S32x16x1024_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  main_v8
-- ==== Kernel.lean ====
abbrev S32x16x1024 : Shape := ⟨3, ![32, 16, 1024]⟩
abbrev S32x1024x512 : Shape := ⟨3, ![32, 1024, 512]⟩
abbrev S1x16x1024 : Shape := ⟨3, ![1, 16, 1024]⟩
abbrev S1x1024x512 : Shape := ⟨3, ![1, 1024, 512]⟩
abbrev S16x1024 : Shape := ⟨2, ![16, 1024]⟩
abbrev S1024 : Shape := ⟨1, ![1024]⟩
abbrev S1024x1 : Shape := ⟨2, ![1024, 1]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x16x1024, .f32⟩
  | .hbm, ⟨1, _⟩ => ⟨S32x1024x512, .f32⟩
  | .hbm, ⟨2, _⟩ => ⟨S32x1024x512, .f32⟩
  | .local _ .vmem, ⟨0, _⟩ => ⟨S1x16x1024, .f32⟩
  | .local _ .vmem, ⟨1, _⟩ => ⟨S1x16x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  reduces_S16x1024_S1024 : S16x1024.Reduces [0] S1024
  shapeCasts_S1024_S1024x1 : S1024.ShapeCasts S1024x1
  shapeCasts_S1024x1_S1024x1 : S1024x1.ShapeCasts S1024x1
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1024.size a ≤ S32x16x1024.size a
  hwx0_0 : ∀ i : grid0.Coords, EltTy.bits .f32 = 32 ∨ (Rect.block (s := S32x16x1024) S1x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S32x1024x512.size a
  hwx0_1 : ∀ i : grid0.Coords, EltTy.bits .f32 = 32 ∨ (Rect.block (s := S32x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S32x1024x512.size a
  hwx0_2 : ∀ i : grid0.Coords, EltTy.bits .f32 = 32 ∨ (Rect.block (s := S32x1024x512) S1x1024x512.size (cc0_transform_2 i) (hinb0_2 i)).WholeWords (EltTy.packing .f32)

variable [Facts₀]

abbrev win0_0 : Pipeline.Window sig grid0 :=
  Pipeline.Window.ofSpec (Memref.whole main_arg0) S1x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16x1024 : Shape := ⟨3, ![32, 16, 1024]⟩
abbrev S32x1024x512 : Shape := ⟨3, ![32, 1024, 512]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 10
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x1024x512, .f32⟩
  | .hbm, ⟨2, _⟩ => ⟨S_, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S32x1024x1, .f32⟩
  | .hbm, ⟨8, _⟩ => ⟨S32x1024x512, .f32⟩
  | .hbm, ⟨9, _⟩ => ⟨S32x1024x512, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S32x16x1024_S32x1024_d1 : S32x16x1024.ReducesTo [1] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x512_0_1_2 : S32x1024x1.BroadcastsInDim S32x1024x512 (![0, 1, 2] : Fin 3 → Fin S32x1024x512.rank)

variable [Facts₀]

class Facts : Prop extends Facts₀ where

variable [Facts]
-- ==== Proof.PoolSpec.lean ====
/-
  Weighted feature pooling over the extended reals, stated once and apart from either program.

  Inputs: `task` of shape [32, 16, 1024] and `feat` of shape [32, 1024, 512]. The result at (n, p, d) is
  `feat (n, p, d)` times the mean over the sixteen rows `m` of `task (n, m, p)`: the row sum divided by the float
  sixteen. Both programs divide by the same word for sixteen, so the word stays unevaluated: nothing here depends on
  which extended real it denotes. No law of the extended reals is used beyond reading a sum over one axis as the sum
  over that axis's coordinate, so neither finiteness of the inputs nor distributivity enters.

  Also here: the two layout steps a vector of row means takes on its way to scaling a matrix row by row — made a
  column, then repeated along the columns — each read at an index by coordinates.
-/
import Idealize.ShloMosaic.PureOps.Ideal
import Idealize.ShloMosaic.Lib.ValueIdx
import Idealize.ShloMosaic.Lib.ValueLayout
import Idealize.ShloMosaic.Lib.Pipeline.Value

noncomputable section

namespace Cert.Pool

open Idealize.ShloMosaic Idealize.ShloMosaic.ValueIdx

variable {α : Type}

/-- A vector of length `a` made a column `[a, 1]` reads, at `(i, u)`, the vector at `i`, whatever the unit
    coordinate `u`: the two indices have the same row-major position. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along `b` columns reads, at `(i, j)`, the column's entry in row `i`: the row
    coordinate is kept (if the column has one row only, that row is row zero), the column coordinate is dropped. -/
theorem column_broadcast_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The pooled features: at (n, p, d), `feat (n, p, d)` times the quotient by sixteen of the sum over the sixteen
    rows `m` of `task (n, m, p)`. -/
def pooled (task : (⟨3, ![32, 16, 1024]⟩ : Shape).Idx → EReal) (feat : (⟨3, ![32, 1024, 512]⟩ : Shape).Idx → EReal) :
    (⟨3, ![32, 1024, 512]⟩ : Shape).Idx → EReal :=
  fun i => feat i * Ideal.div (∑ m : Fin 16, task (ix3 (i 0) m (i 1))) (Ideal.ofBits .f32 0x41800000#32)

/-- The same at an index given by its coordinates. -/
theorem pooled_ix3 (task : (⟨3, ![32, 16, 1024]⟩ : Shape).Idx → EReal) (feat : (⟨3, ![32, 1024, 512]⟩ : Shape).Idx → EReal)
    (n : Fin 32) (p : Fin 1024) (d : Fin 512) :
    pooled task feat (ix3 n p d)
      = feat (ix3 n p d) * Ideal.div (∑ m : Fin 16, task (ix3 n m p)) (Ideal.ofBits .f32 0x41800000#32) := rfl

end Cert.Pool

end
-- ==== Proof.PoolKernel.lean ====
/-
  The idealized kernel's result array is the pooled features of its two argument arrays.

  The grid has 32 points, one per leading coordinate `n`. At point `n` the body reads block `n` of `task` (a
  [1, 16, 1024] slab) and block `n` of `feat` (a [1, 1024, 512] slab), sums the slab of `task` over its sixteen rows,
  divides each of the 1024 sums by sixteen, and multiplies row `p` of the slab of `feat` by the `p`-th quotient; it
  writes the product back as block `n` of the result. So entry (u, p, d) of what point `n` writes is
  `feat (n, p, d) * ((∑ m, task (n, m, p)) / 16)`, which is entry (n, p, d) of the pooled features; and the 32 blocks
  tile the result array, block `n` holding exactly the indices whose leading coordinate is `n`.
-/
import proofs.«172444_j20023137534634_1_alg».proof.Proof.Gen.KernelIdeal.Value
import proofs.«172444_j20023137534634_1_alg».proof.Proof.PoolSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PoolValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## One block: the body's arithmetic at an index -/

/-- The sum over the sixteen rows of a [1, 16, 1024] slab, read at column `p`: the slab is first read as a
    [16, 1024] matrix, whose entry (k, p) is the slab's entry (0, k, p), and the reduction over the row axis at `p`
    is the sum over `k` of the matrix at (k, p). -/
theorem rowSum_apply (P1 : FVec Ideal S1x16x1024 .f32) (p : Fin 1024) :
    multiReduction .add [0] S1024 (shapeCast S16x1024 P1 shapeCasts_S1x16x1024_S16x1024) 0x00000000#32
        reduces_S16x1024_S1024 (.inl rfl) rfl (ix1 p)
      = ∑ k : Fin 16, P1 (ix3 (0 : Fin 1) k p) := by
  refine (Ideal.multiReduction_add_single (shapeCast S16x1024 P1 shapeCasts_S1x16x1024_S16x1024) 0x00000000#32
    reduces_S16x1024_S1024 (.inl rfl) rfl (ix1 p)).trans ?_
  refine Finset.sum_congr rfl fun k _ => ?_
  have hl : reduces_S16x1024_S1024.lift (ix1 p) k = ix2 k p :=
    funext fun a => Fin.ext (by match a with | ⟨0, _⟩ => rfl | ⟨1, _⟩ => rfl)
  rw [hl]
  exact shapeCast_1ab_ab_apply P1 shapeCasts_S1x16x1024_S16x1024 k p

/-- What the body leaves in the output block, at (u, p, d): the slab of `feat` at (0, p, d) times the quotient by
    sixteen of the sum over the sixteen rows of the slab of `task` at column `p`. -/
theorem block_apply (P0 : FVec Ideal S1x1024x512 .f32) (P1 : FVec Ideal S1x16x1024 .f32)
    (u : Fin 1) (p : Fin 1024) (d : Fin 512) :
    E2 (F := Ideal) P0 P1 (ix3 u p d)
      = P0 (ix3 (0 : Fin 1) p d)
          * Ideal.div (∑ k : Fin 16, P1 (ix3 (0 : Fin 1) k p)) (Ideal.ofBits .f32 0x41800000#32) := by
  have h0 : ix2_0 (ix3 u p d) = ix3 (0 : Fin 1) p d :=
    funext fun a => Fin.ext (by match a with | ⟨0, _⟩ => rfl | ⟨1, _⟩ => rfl | ⟨2, _⟩ => rfl)
  have h1 : ix2_1 (ix3 u p d) = ix1 p :=
    funext fun a => Fin.ext (by match a with | ⟨0, _⟩ => rfl)
  show P0 (ix2_0 (ix3 u p d))
      * Ideal.div (multiReduction .add [0] S1024 (shapeCast S16x1024 P1 shapeCasts_S1x16x1024_S16x1024) 0x00000000#32
          reduces_S16x1024_S1024 (.inl rfl) rfl (ix2_1 (ix3 u p d))) (Ideal.ofBits .f32 0x41800000#32) = _
  rw [h0, h1]
  exact congrArg (fun s => P0 (ix3 (0 : Fin 1) p d) * Ideal.div s (Ideal.ofBits .f32 0x41800000#32)) (rowSum_apply P1 p)

theorem zero_offsets : (![0, 0, 0] : Fin 3 → Nat) = fun _ => 0 := funext fun a => by fin_cases a <;> rfl

/-- The body's result for the output window is that block: its one store writes the whole block, so the block is the
    store's payload, and its two loads read the whole input blocks, so the payload's operands are the blocks. -/
theorem out_eq (x0 : Vec Ideal S1x16x1024 .f32) (x1 : Vec Ideal S1x1024x512 .f32) (y : S1x1024x512.Idx) :
    out0_2 (F := Ideal) x0 x1 y = E2 (F := Ideal) x1 x0 y := by
  unfold out0_2
  rw [canon2_eq]
  rw [View.ld_unit_zero (S := S1x1024x512) zero_offsets, View.ld_unit_zero (S := S1x16x1024) zero_offsets]

/-- So the body's result at (u, p, d) is the product of the slab of `feat` with the quotient of the row sum. -/
theorem out_apply (x0 : FVec Ideal S1x16x1024 .f32) (x1 : FVec Ideal S1x1024x512 .f32)
    (u : Fin 1) (p : Fin 1024) (d : Fin 512) :
    out0_2 (F := Ideal) x0 x1 (ix3 u p d)
      = x1 (ix3 (0 : Fin 1) p d)
          * Ideal.div (∑ k : Fin 16, x0 (ix3 (0 : Fin 1) k p)) (Ideal.ofBits .f32 0x41800000#32) :=
  (out_eq x0 x1 (ix3 u p d)).trans (block_apply x1 x0 u p d)

/-- One grid point against the pooled features: if the two input blocks are the slabs of the arrays `A0` and `A1` at
    leading coordinate `n`, the body's result at (u, p, d) is the pooled features of `A0` and `A1` at any index `i`
    whose coordinates are (n, p, d). -/
theorem point_eq (A0 : FVec Ideal S32x16x1024 .f32) (A1 : FVec Ideal S32x1024x512 .f32)
    (x0 : FVec Ideal S1x16x1024 .f32) (x1 : FVec Ideal S1x1024x512 .f32) (n : Fin 32)
    (h0 : ∀ (k : Fin 16) (p : Fin 1024), x0 (ix3 (0 : Fin 1) k p) = A0 (ix3 n k p))
    (h1 : ∀ (p : Fin 1024) (d : Fin 512), x1 (ix3 (0 : Fin 1) p d) = A1 (ix3 n p d))
    (y : S1x1024x512.Idx) (i : S32x1024x512.Idx)
    (hi0 : (i 0).val = n.val) (hi1 : (i 1).val = (y 1).val) (hi2 : (i 2).val = (y 2).val) :
    out0_2 (F := Ideal) x0 x1 y = Cert.Pool.pooled A0 A1 i := by
  obtain ⟨u, p, d, rfl⟩ : ∃ (u : Fin 1) (p : Fin 1024) (d : Fin 512), y = ix3 u p d := ⟨y 0, y 1, y 2, eq_ix3 y⟩
  have hi : i = ix3 n p d :=
    funext fun a => Fin.ext (by
      match a with
      | ⟨0, _⟩ => exact hi0
      | ⟨1, _⟩ => exact hi1
      | ⟨2, _⟩ => exact hi2)
  rw [hi, out_apply, Cert.Pool.pooled_ix3, h1 p d]
  exact congrArg (fun s => A1 (ix3 n p d) * Ideal.div s (Ideal.ofBits .f32 0x41800000#32))
    (Finset.sum_congr rfl fun k _ => h0 k p)

/-! ## The grid: which block each point reads and writes -/

variable (m : (ℓ : Loc nD τ sig) → Buf (Elt Ideal) ℓ) (ρ : Dev nD → PrngReg)

/-- The printed index maps, decided over the 32 grid points: both input windows move with the output window along
    the leading axis and sit at block zero on the other two; the output's leading block index is below 32. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 32 ∧ win0_2.index t (1 : Fin 3) = 0 ∧ win0_2.index t (2 : Fin 3) = 0 :=
  (by decide +kernel : ∀ t : Fin grid0.N, _)

/-- Every leading coordinate is some point's output block. -/
theorem idx_onto : ∀ n : Fin 32, ∃ t : Fin cfg0.N, win0_2.index t = ![n.val, 0, 0] :=
  (by decide +kernel : ∀ n : Fin 32, ∃ t : Fin grid0.N, win0_2.index t = ![n.val, 0, 0])

/-- The two argument arrays as the region finds them, and the two input blocks at a point, at their literal types. -/
abbrev taskArr (c : Dev nD) : FVec Ideal S32x16x1024 .f32 := V m c main_arg0
abbrev featArr (c : Dev nD) : FVec Ideal S32x1024x512 .f32 := V m c main_arg1
abbrev taskBlk (c : Dev nD) (t : Fin cfg0.N) : FVec Ideal S1x16x1024 .f32 := iblk m c 0 t
abbrev featBlk (c : Dev nD) (t : Fin cfg0.N) : FVec Ideal S1x1024x512 .f32 := iblk m c 1 t

/-- The block of `task` at point `t` is the slab of `task` at the point's leading block index: a block's coordinate
    on an axis is the block index times the block's extent plus the coordinate inside the block. -/
theorem taskBlk_apply (c : Dev nD) (t : Fin cfg0.N) (n : Fin 32) (hn : win0_2.index t (0 : Fin 3) = n.val)
    (k : Fin 16) (p : Fin 1024) : taskBlk m c t (ix3 (0 : Fin 1) k p) = taskArr m c (ix3 n k p) := by
  obtain ⟨a0, a1, a2, -, -, -, -, -, -⟩ := idx_facts t
  show V m c main_arg0 (((cfg0.win 0).blk t).view.emb (ix3 (0 : Fin 1) k p)) = V m c main_arg0 (ix3 n k p)
  refine congrArg (V m c main_arg0) (funext fun a => Fin.ext ?_)
  match a with
  | ⟨0, _⟩ => show win0_0.index t (0 : Fin 3) * 1 + 1 * 0 = n.val; omega
  | ⟨1, _⟩ => show win0_0.index t (1 : Fin 3) * 16 + 1 * k.val = k.val; omega
  | ⟨2, _⟩ => show win0_0.index t (2 : Fin 3) * 1024 + 1 * p.val = p.val; omega

/-- The block of `feat` at point `t` likewise. -/
theorem featBlk_apply (c : Dev nD) (t : Fin cfg0.N) (n : Fin 32) (hn : win0_2.index t (0 : Fin 3) = n.val)
    (p : Fin 1024) (d : Fin 512) : featBlk m c t (ix3 (0 : Fin 1) p d) = featArr m c (ix3 n p d) := by
  obtain ⟨-, -, -, b0, b1, b2, -, -, -⟩ := idx_facts t
  show V m c main_arg1 (((cfg0.win 1).blk t).view.emb (ix3 (0 : Fin 1) p d)) = V m c main_arg1 (ix3 n p d)
  refine congrArg (V m c main_arg1) (funext fun a => Fin.ext ?_)
  match a with
  | ⟨0, _⟩ => show win0_1.index t (0 : Fin 3) * 1 + 1 * 0 = n.val; omega
  | ⟨1, _⟩ => show win0_1.index t (1 : Fin 3) * 1024 + 1 * p.val = p.val; omega
  | ⟨2, _⟩ => show win0_1.index t (2 : Fin 3) * 512 + 1 * d.val = d.val; omega

/-- WHAT POINT `t` WRITES BACK is block `t` of the pooled features of the argument arrays as the region finds them. -/
theorem flushed_eq (c : Dev nD) (t : Fin cfg0.N) :
    (dats m 0 c).flushed 2 t
      = ((cfg0.win 2).blk t).view.read (Elt Ideal) (Cert.Pool.pooled (taskArr m c) (featArr m c)) := by
  rw [flushed2]
  obtain ⟨-, -, -, -, -, -, o0, o1, o2⟩ := idx_facts t
  funext y
  show out0_2 (F := Ideal) (taskBlk m c t) (featBlk m c t) y
      = Cert.Pool.pooled (taskArr m c) (featArr m c) (((cfg0.win 2).blk t).view.emb y)
  refine point_eq (taskArr m c) (featArr m c) (taskBlk m c t) (featBlk m c t) ⟨win0_2.index t (0 : Fin 3), o0⟩
    (fun k p => taskBlk_apply m c t ⟨win0_2.index t (0 : Fin 3), o0⟩ rfl k p)
    (fun p d => featBlk_apply m c t ⟨win0_2.index t (0 : Fin 3), o0⟩ rfl p d)
    y (((cfg0.win 2).blk t).view.emb y) ?_ ?_ ?_
  · show win0_2.index t (0 : Fin 3) * 1 + 1 * (y 0).val = win0_2.index t (0 : Fin 3)
    have hy : (y 0).val < 1 := (y 0).isLt
    omega
  · show win0_2.index t (1 : Fin 3) * 1024 + 1 * (y 1).val = (y 1).val
    omega
  · show win0_2.index t (2 : Fin 3) * 512 + 1 * (y 2).val = (y 2).val
    omega

/-! ## The blocks tile the result array -/

/-- An index of the result array is in point `t`'s block iff each coordinate is in the block's range on its axis. -/
theorem mem_blk (t : Fin cfg0.N) (i : S32x1024x512.Idx) :
    i ∈ ((cfg0.win 2).blk t).view.set
      ↔ ∀ a : Fin 3, win0_2.index t a * S1x1024x512.size a ≤ (i a).val
          ∧ (i a).val < win0_2.index t a * S1x1024x512.size a + S1x1024x512.size a := by
  show i ∈ ((View.whole main_v0).slice (win0_2.rect t)).set ↔ _
  rw [View.set_slice_whole, Rect.mem_set_unit]
  exact Iff.rfl

/-- Every index of the result array is in the block of the point whose output block is the index's leading
    coordinate, and that point writes back. -/
theorem cover (i : S32x1024x512.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 512 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 512 ≤ (i 2).val ∧ (i 2).val < win0_2.index t (2 : Fin 3) * 512 + 512
    omega

/-- THE RESULT ARRAY after the run: the pooled features of the argument arrays as launched. -/
theorem final (c : Dev nD) :
    (dats m 0 c).arrAt 2 cfg0.N
      = Cert.Pool.pooled (m ((c : Thread nD τ).loc main_arg0)) (m ((c : Thread nD τ).loc main_arg1)) :=
  (dats m 0 c).arrAt_eq_of_cover 2 (Cert.Pool.pooled (taskArr m c) (featArr m c))
    (fun t _ => flushed_eq m c t) cover

/-- The run, read: every weakly fair execution terminates with the result array at the pooled features of the
    argument arrays, and the argument arrays unchanged. -/
theorem run : θ_run defs (onTc (τ := τ) (main (F := Ideal))) ⟨m, fun _ => 0, ρ⟩ fun r => ∀ c : Dev nD,
      r.2.mem ((c : Thread nD τ).loc main_v0)
        = Cert.Pool.pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.PoolValue

end
-- ==== Proof.PoolReference.lean ====
/-
  The idealized reference computes the pooled features of its two arguments.

  Its eight host operations: the sum of `task` over its middle axis from the initial value zero, the quotient of that
  [32, 1024] array by sixteen (the word broadcast from a scalar), the quotient repeated along a new last axis of
  extent 512, and the product of `feat` with that. Read at (n, p, d), layout operation by layout operation, the
  result is `feat (n, p, d) * ((0 + ∑ m, task (n, m, p)) / 16)`; the initial value is the extended real zero and
  drops out, which leaves the pooled features at (n, p, d).
-/
import proofs.«172444_j20023137534634_1_alg».proof.Proof.Gen.ReferenceIdeal.Read
import proofs.«172444_j20023137534634_1_alg».proof.Proof.PoolSpec
import Idealize.ShloMosaic.PureOps.Ideal.Laws
import Idealize.ShloMosaic.Lib.ValueIdx

noncomputable section

namespace Cert.ReferenceIdeal.PoolValue

open Cert.ReferenceIdeal Cert.ReferenceIdeal.Gen Cert.ReferenceIdeal.Read Idealize.ShloMosaic Idealize.ShloMosaic.TcCoe
open Idealize.ShloMosaic.ValueIdx

/-- Through the two repeats and the sum, the result index (n, p, d) reads `task` at (n, m, p) for the `m`-th term
    of the sum: the last coordinate is dropped by the repeat, the summed coordinate goes in the middle. -/
theorem summand_idx (n : Fin 32) (p : Fin 1024) (d : Fin 512) (k : Fin 16) :
    idx_main_v0 (idx_main_v3 (idx_main_v4 (ix3 n p d))) k = ix3 n k p :=
  funext fun a => Fin.ext (by match a with | ⟨0, _⟩ => rfl | ⟨1, _⟩ => rfl | ⟨2, _⟩ => rfl)

/-- The reference's last stage is the pooled features of its arguments, index by index. -/
theorem reference_eq_pooled (x0 : (⟨S32x16x1024, .f32⟩ : BufTy).Contents (Elt Ideal))
    (x1 : (⟨S32x1024x512, .f32⟩ : BufTy).Contents (Elt Ideal)) :
    val_main_v5 (F := Ideal) x0 x1 = Cert.Pool.pooled x0 x1 := by
  funext i
  obtain ⟨n, p, d, rfl⟩ : ∃ (n : Fin 32) (p : Fin 1024) (d : Fin 512), i = ix3 n p d := ⟨i 0, i 1, i 2, eq_ix3 i⟩
  rw [val_main_v5_apply, val_main_v4_apply, val_main_v3_apply, val_main_v2_apply, val_main_v0_apply, val_main_v1_apply,
    val_main_cst_0_apply, val_main_cst_apply]
  simp only [summand_idx, Ideal.mulf_def, Ideal.hostDivf_def, Ideal.ofBits_def, Ideal.ofBits_zero_f32, zero_add]
  rfl

end Cert.ReferenceIdeal.PoolValue

end
-- ==== Proof.lean ====
/-
  The certificate of weighted feature pooling: `out (n, p, d) = feat (n, p, d) * mean_m task (n, m, p)` for
  `task` of shape [32, 16, 1024] and `feat` of shape [32, 1024, 512].

  The kernel walks a grid of 32 points, one per `n`; at each it sums a [16, 1024] slab of `task` over its rows,
  divides the 1024 sums by sixteen and scales the rows of a [1024, 512] slab of `feat` by the quotients. The
  reference sums `task` over its middle axis on the host, divides by sixteen and multiplies `feat` by the quotient
  repeated along the last axis. Over the extended reals both are the one function `Cert.Pool.pooled`: each side's
  sum over the sixteen rows is the same finite sum (the reference's starts from an initial value that is zero),
  each side divides it by the same word for sixteen, and each multiplies `feat` by the quotient on the right. No
  rearrangement of the arithmetic is needed, so the finiteness of the inputs is never used.

  The idealization rewrote nothing, so there is nothing to preserve; the two kernel programs terminate without a
  fault and keep their arguments by their frame runs, and the reference by its run with the result dropped.
-/
import proofs.«172444_j20023137534634_1_alg».proof.Defs
import proofs.«172444_j20023137534634_1_alg».proof.Proof.Gen.Kernel
import proofs.«172444_j20023137534634_1_alg».proof.Proof.Gen.Kernel.Skeleton
import proofs.«172444_j20023137534634_1_alg».proof.Proof.Gen.Kernel.Launch
import proofs.«172444_j20023137534634_1_alg».proof.Proof.Gen.Kernel.Points
import proofs.«172444_j20023137534634_1_alg».proof.Proof.Gen.Kernel.Frame
import proofs.«172444_j20023137534634_1_alg».proof.Proof.Gen.KernelIdeal
import proofs.«172444_j20023137534634_1_alg».proof.Proof.Gen.KernelIdeal.Skeleton
import proofs.«172444_j20023137534634_1_alg».proof.Proof.Gen.KernelIdeal.Launch
import proofs.«172444_j20023137534634_1_alg».proof.Proof.Gen.KernelIdeal.Points
import proofs.«172444_j20023137534634_1_alg».proof.Proof.Gen.KernelIdeal.Frame
import proofs.«172444_j20023137534634_1_alg».proof.Proof.Gen.ReferenceIdeal
import proofs.«172444_j20023137534634_1_alg».proof.Proof.Gen.Pre_finite_inputs
import proofs.«172444_j20023137534634_1_alg».proof.Proof.Gen.KernelIdeal.Value
import proofs.«172444_j20023137534634_1_alg».proof.Proof.Gen.ReferenceIdeal.Run
import proofs.«172444_j20023137534634_1_alg».proof.Proof.Gen.ReferenceIdeal.Read
import proofs.«172444_j20023137534634_1_alg».proof.Proof.PoolSpec
import proofs.«172444_j20023137534634_1_alg».proof.Proof.PoolKernel
import proofs.«172444_j20023137534634_1_alg».proof.Proof.PoolReference
import Idealize.ShloMosaic.Adequacy
import Idealize.ShloMosaic.Init

noncomputable section

namespace Cert.Proof

open Idealize.ShloMosaic Idealize.ShloMosaic.TcCoe Idealize.SL.Sem

/-- The word-level kernel terminates, faults nowhere and keeps its arguments: its frame run. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The idealized reference likewise: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `task` and `feat`, the idealized kernel's result array ends at the pooled features
    of its arguments, and the idealized reference's last stage is the pooled features of its own, which are the same
    arrays. -/
theorem algebraic : Cert.algebraic_KernelIdeal_ReferenceIdeal := by
  intro m ρ m' ρ' _ hagree
  refine ⟨fun c => Cert.Pool.pooled (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.PoolValue.reference_eq_pooled,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
